-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S6144 : Shape := ⟨1, ![6144]⟩
abbrev S2048x64 : Shape := ⟨2, ![2048, 64]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  main_v18

def fn {F : FTy → Type} [FloatOps F] (main_arg0 : FVec F S2x2048x2048 .f32) (main_arg1 : FVec F S6144x2048 .f32) (main_arg2 : FVec F S6144 .f32) (main_arg3 : FVec F S2048x64 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_v13 main_v16
-- ==== Kernel.lean ====
abbrev S2x2048x2048 : Shape := ⟨3, ![2, 2048, 2048]⟩
abbrev S6144x2048 : Shape := ⟨2, ![6144, 2048]⟩
abbrev S6144 : Shape := ⟨1, ![6144]⟩
abbrev S2048x64 : Shape := ⟨2, ![2048, 64]⟩
abbrev S4096x2048 : Shape := ⟨2, ![4096, 2048]⟩
abbrev S1x6144 : Shape := ⟨2, ![1, 6144]⟩
abbrev S4096x6144 : Shape := ⟨2, ![4096, 6144]⟩
abbrev S1024x2048 : Shape := ⟨2, ![1024, 2048]⟩
abbrev S1x1024 : Shape := ⟨2, ![1, 1024]⟩
abbrev S1024x1024 : Shape := ⟨2, ![1024, 1024]⟩
abbrev S2x2048x6144 : Shape := ⟨3, ![2, 2048, 6144]⟩
abbrev S2x2048x16x128 : Shape := ⟨4, ![2, 2048, 16, 128]⟩
abbrev S1x2048x1x64 : Shape := ⟨4, ![1, 2048, 1, 64]⟩
abbrev S2x2048x16x64 : Shape := ⟨4, ![2, 2048, 16, 64]⟩
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024 : Shape := ⟨1, ![1024]⟩
abbrev S1024x1 : Shape := ⟨2, ![1024, 1]⟩

abbrev nBuf : Space → Nat
  | .hbm => 35
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x64, .f32⟩
  | .hbm, ⟨4, _⟩ => ⟨S4096x2048, .f32⟩
  | .hbm, ⟨5, _⟩ => ⟨S4096x2048, .bf16⟩
  | .hbm, ⟨6, _⟩ => ⟨S6144x2048, .bf16⟩
  | .hbm, ⟨7, _⟩ => ⟨S1x6144, .f32⟩
  | .hbm, ⟨8, _⟩ => ⟨S4096x6144, .f32⟩
  | .hbm, ⟨9, _⟩ => ⟨S2x2048x6144, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S2x2048x16x128, .f32⟩
  | .hbm, ⟨14, _⟩ => ⟨S2x2048x16x128, .f32⟩
  | .hbm, ⟨15, _⟩ => ⟨S2x2048x16x128, .f32⟩
  | .hbm, ⟨16, _⟩ => ⟨S1x2048x1x64, .f32⟩
  | .hbm, ⟨17, _⟩ => ⟨S2x2048x16x64, .f32⟩
  | .hbm, ⟨18, _⟩ => ⟨S2x2048x16x64, .f32⟩
  | .hbm, ⟨19, _⟩ => ⟨S2x2048x16x64, .f32⟩
  | .hbm, ⟨20, _⟩ => ⟨S2x2048x16x64, .f32⟩
  | .hbm, ⟨21, _⟩ => ⟨S2x2048x16x64, .f32⟩
  | .hbm, ⟨22, _⟩ => ⟨S2x2048x16x64, .f32⟩
  | .hbm, ⟨23, _⟩ => ⟨S2x2048x16x128, .f32⟩
  | .hbm, ⟨24, _⟩ => ⟨S2x2048x16x128, .f32⟩
  | .hbm, ⟨25, _⟩ => ⟨S2x16x2048x128, .f32⟩
  | .hbm, ⟨26, _⟩ => ⟨S2x16x2048x128, .f32⟩
  | .hbm, ⟨27, _⟩ => ⟨S2x16x2048x128, .f32⟩
  | .hbm, ⟨28, _⟩ => ⟨S32x2048x128, .f32⟩
  | .hbm, ⟨29, _⟩ => ⟨S32x2048x128, .f32⟩
  | .hbm, ⟨30, _⟩ => ⟨S32x2048x128, .f32⟩
  | .hbm, ⟨31, _⟩ => ⟨S32x2048x128, .f32⟩
  | .hbm, ⟨32, _⟩ => ⟨S2x16x2048x128, .f32⟩
  | .hbm, ⟨33, _⟩ => ⟨S2x2048x16x128, .f32⟩
  | .hbm, ⟨34, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x128, .f32⟩
  | .local _ .vmem, ⟨9, _⟩ => ⟨S1x1024x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x1024x128, .f32⟩
  | .local _ .vmem, ⟨15, _⟩ => ⟨S1x1024x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x2048x2048_S4096x2048 : S2x2048x2048.ShapeCasts S4096x2048
  bitsLt_bf16_f32 : FTy.bits .bf16 < FTy.bits .f32
  shapeCasts_S6144_S1x6144 : S6144.ShapeCasts S1x6144
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x6144_S2x2048x6144 : S4096x6144.ShapeCasts S2x2048x6144
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  bcast_S2048x64_S1x2048x1x64_1_3 : S2048x64.BroadcastsInDim S1x2048x1x64 (![1, 3] : Fin 2 → Fin S1x2048x1x64.rank)
  slices_S2x2048x16x128_S2x2048x16x64_0_0_0_0 : S2x2048x16x128.Slices ![0, 0, 0, 0] S2x2048x16x64
  bcast_S1x2048x1x64_S2x2048x16x64_0_1_2_3 : S1x2048x1x64.BroadcastsInDim S2x2048x16x64 (![0, 1, 2, 3] : Fin 4 → Fin S2x2048x16x64.rank)
  concatenates_S2x2048x16x64_S2x2048x16x64_S2x2048x16x128_d3 : Shape.Concatenates [S2x2048x16x64, S2x2048x16x64] S2x2048x16x128 3
  transposes_S2x2048x16x128_S2x16x2048x128_0_2_1_3 : S2x2048x16x128.Transposes [0, 2, 1, 3] S2x16x2048x128
  shapeCasts_S2x16x2048x128_S32x2048x128 : S2x16x2048x128.ShapeCasts S32x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  shapeCasts_S32x2048x128_S2x16x2048x128 : S32x2048x128.ShapeCasts S2x16x2048x128
  transposes_S2x16x2048x128_S2x2048x16x128_0_2_1_3 : S2x16x2048x128.Transposes [0, 2, 1, 3] S2x2048x16x128
  shapeCasts_S2x2048x16x128_S4096x2048 : S2x2048x16x128.ShapeCasts S4096x2048
  dot_S1024x2048_S1024x2048_S1024x1024_1_1_0_0_n_n_wf : DotDims.WF S1024x2048 S1024x2048 S1024x1024 [1] [1] [0] [0] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .bf16 = 32 ∨ (Rect.block (s := S6144x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x6144.size a
  hwx0_3 : ∀ i : grid0.Coords, EltTy.bits .f32 = 32 ∨ (Rect.block (s := S4096x6144) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S32x2048x128.size a
  hwx1_0 : ∀ i : grid1.Coords, EltTy.bits .f32 = 32 ∨ (Rect.block (s := S32x2048x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S32x2048x128.size a
  hwx1_1 : ∀ i : grid1.Coords, EltTy.bits .f32 = 32 ∨ (Rect.block (s := S32x2048x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S32x2048x128.size a
  hwx1_2 : ∀ i : grid1.Coords, EltTy.bits .f32 = 32 ∨ (Rect.block (s := S32x2048x128) S1x2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S32x2048x128.size a
  hwx1_3 : ∀ i : grid1.Coords, EltTy.bits .f32 = 32 ∨ (Rect.block (s := S32x2048x128) S1x1024x128.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S6144 : Shape := ⟨1, ![6144]⟩
abbrev S2048x64 : Shape := ⟨2, ![2048, 64]⟩
abbrev S2x2048x6144 : Shape := ⟨3, ![2, 2048, 6144]⟩
abbrev S1x1x6144 : Shape := ⟨3, ![1, 1, 6144]⟩
abbrev S2x2048x16x128 : Shape := ⟨4, ![2, 2048, 16, 128]⟩
abbrev S1x2048x1x64 : Shape := ⟨4, ![1, 2048, 1, 64]⟩
abbrev S2x2048x16x64 : Shape := ⟨4, ![2, 2048, 16, 64]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S4096x2048 : Shape := ⟨2, ![4096, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x64, .f32⟩
  | .hbm, ⟨4, _⟩ => ⟨S2x2048x6144, .f32⟩
  | .hbm, ⟨5, _⟩ => ⟨S1x1x6144, .f32⟩
  | .hbm, ⟨6, _⟩ => ⟨S2x2048x6144, .f32⟩
  | .hbm, ⟨7, _⟩ => ⟨S2x2048x6144, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x16x128, .f32⟩
  | .hbm, ⟨12, _⟩ => ⟨S2x2048x16x128, .f32⟩
  | .hbm, ⟨13, _⟩ => ⟨S2x2048x16x128, .f32⟩
  | .hbm, ⟨14, _⟩ => ⟨S1x2048x1x64, .f32⟩
  | .hbm, ⟨15, _⟩ => ⟨S2x2048x16x64, .f32⟩
  | .hbm, ⟨16, _⟩ => ⟨S2x2048x16x64, .f32⟩
  | .hbm, ⟨17, _⟩ => ⟨S2x2048x16x64, .f32⟩
  | .hbm, ⟨18, _⟩ => ⟨S2x2048x16x64, .f32⟩
  | .hbm, ⟨19, _⟩ => ⟨S2x2048x16x64, .f32⟩
  | .hbm, ⟨20, _⟩ => ⟨S2x2048x16x64, .f32⟩
  | .hbm, ⟨21, _⟩ => ⟨S2x2048x16x128, .f32⟩
  | .hbm, ⟨22, _⟩ => ⟨S2x2048x16x128, .f32⟩
  | .hbm, ⟨23, _⟩ => ⟨S2x16x2048x128, .f32⟩
  | .hbm, ⟨24, _⟩ => ⟨S2x16x2048x128, .f32⟩
  | .hbm, ⟨25, _⟩ => ⟨S2x16x2048x128, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x128, .f32⟩
  | .hbm, ⟨45, _⟩ => ⟨S2x2048x16x128, .f32⟩
  | .hbm, ⟨46, _⟩ => ⟨S4096x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  bcast_S2048x64_S1x2048x1x64_1_3 : S2048x64.BroadcastsInDim S1x2048x1x64 (![1, 3] : Fin 2 → Fin S1x2048x1x64.rank)
  slices_S2x2048x16x128_S2x2048x16x64_0_0_0_0 : S2x2048x16x128.Slices ![0, 0, 0, 0] S2x2048x16x64
  bcast_S1x2048x1x64_S2x2048x16x64_0_1_2_3 : S1x2048x1x64.BroadcastsInDim S2x2048x16x64 (![0, 1, 2, 3] : Fin 4 → Fin S2x2048x16x64.rank)
  concatenates_S2x2048x16x64_S2x2048x16x64_S2x2048x16x128_d3 : Shape.Concatenates [S2x2048x16x64, S2x2048x16x64] S2x2048x16x128 3
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S4096x2048 : S2x2048x16x128.ShapeCasts S4096x2048
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Spec.lean ====
/-
  The mathematics both programs compute, stated once on the extended reals, generic in the extents so that the
  same functions read one block of a kernel and the whole arrays.

  * `projAt x w b r f = Σ_e x[r, e] · w[f, e] + b[0, f]`: one entry of the affine projection `x · wᵀ + b`;
    `proj` is the whole [4096, 6144] array of them.
  * Softmax attention, head by head: for head h and query row s the scaled scores
    `score h s j = (Σ_d q[h, s, d] · k[h, j, d]) · c` (c the scale constant's value), their row maximum
    (a fold of max from −∞, then once more against −∞, as both programs take it), the exponentials of the
    shifted scores, their row sum, and `attnAt h s d = Σ_j (expo_j / rowSum) · v[h, j, d]`;
    `attn` is the whole [32, 2048, 128] array of them.
  Nothing here mentions a program: a kernel's blocks and the reference's host operations are each shown to be
  these functions of the arguments.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The scale constant both programs multiply the scores by, as the extended real its word denotes. -/
def scaleC : EReal := Ideal.ofBits .f32 0x3DB504F3#32
/-- The value both programs start a row maximum from: the word of −∞. -/
def negInf : EReal := Ideal.ofBits .f32 0xFF800000#32

/-- One entry of `x · wᵀ + b`. -/
def projAt {nr nf ne : Nat} (x : (⟨2, ![nr, ne]⟩ : Shape).Idx → EReal) (w : (⟨2, ![nf, ne]⟩ : Shape).Idx → EReal)
    (b : (⟨2, ![1, nf]⟩ : Shape).Idx → EReal) (r : Fin nr) (f : Fin nf) : EReal :=
  (∑ e : Fin ne, x (ix2 r e) * w (ix2 f e)) + b (ix2 (0 : Fin 1) f)

/-- `x · wᵀ + b` as one array. -/
def proj (x : (⟨2, ![4096, 2048]⟩ : Shape).Idx → EReal) (w : (⟨2, ![6144, 2048]⟩ : Shape).Idx → EReal)
    (b : (⟨2, ![1, 6144]⟩ : Shape).Idx → EReal) : (⟨2, ![4096, 6144]⟩ : Shape).Idx → EReal := fun i =>
  projAt x w b (⟨(i 0).val, (i 0).isLt⟩ : Fin 4096) (⟨(i 1).val, (i 1).isLt⟩ : Fin 6144)

/-- The scaled score of query row `s` against key row `j` in head `h`. -/
def score {nh ns nk nd : Nat} (q : (⟨3, ![nh, ns, nd]⟩ : Shape).Idx → EReal) (k : (⟨3, ![nh, nk, nd]⟩ : Shape).Idx → EReal)
    (h : Fin nh) (s : Fin ns) (j : Fin nk) : EReal :=
  (∑ d : Fin nd, q (ix3 h s d) * k (ix3 h j d)) * scaleC

/-- The row maximum of the scores: the fold of max from −∞ over the key rows, and once more against −∞. -/
def rowMax {nh ns nk nd : Nat} (q : (⟨3, ![nh, ns, nd]⟩ : Shape).Idx → EReal) (k : (⟨3, ![nh, nk, nd]⟩ : Shape).Idx → EReal)
    (h : Fin nh) (s : Fin ns) : EReal :=
  max negInf ((Finset.univ : Finset (Fin nk)).fold max negInf (fun j => score q k h s j))

/-- The exponential of a score shifted by its row's maximum. -/
def expo {nh ns nk nd : Nat} (q : (⟨3, ![nh, ns, nd]⟩ : Shape).Idx → EReal) (k : (⟨3, ![nh, nk, nd]⟩ : Shape).Idx → EReal)
    (h : Fin nh) (s : Fin ns) (j : Fin nk) : EReal :=
  Ideal.exp (score q k h s j - rowMax q k h s)

/-- The sum of a row's exponentials. -/
def rowSum {nh ns nk nd : Nat} (q : (⟨3, ![nh, ns, nd]⟩ : Shape).Idx → EReal) (k : (⟨3, ![nh, nk, nd]⟩ : Shape).Idx → EReal)
    (h : Fin nh) (s : Fin ns) : EReal :=
  ∑ j : Fin nk, expo q k h s j

/-- One entry of softmax attention. -/
def attnAt {nh ns nk nd : Nat} (q : (⟨3, ![nh, ns, nd]⟩ : Shape).Idx → EReal) (k v : (⟨3, ![nh, nk, nd]⟩ : Shape).Idx → EReal)
    (h : Fin nh) (s : Fin ns) (d : Fin nd) : EReal :=
  ∑ j : Fin nk, Ideal.div (expo q k h s j) (rowSum q k h s) * v (ix3 h j d)

/-- Softmax attention as one array. -/
def attn (q k v : (⟨3, ![32, 2048, 128]⟩ : Shape).Idx → EReal) : (⟨3, ![32, 2048, 128]⟩ : Shape).Idx → EReal := fun i =>
  attnAt q k v (⟨(i 0).val, (i 0).isLt⟩ : Fin 32) (⟨(i 1).val, (i 1).isLt⟩ : Fin 2048) (⟨(i 2).val, (i 2).isLt⟩ : Fin 128)

end Cert.Spec

end
-- ==== Proof.Chain.lean ====
/-
  The host operations both programs apply between the projection and the attention, named once as functions:
  from the [2, 2048, 6144] projection result, the three [2, 2048, 2048] column groups (queries, keys, values) split
  into 16 heads of 128 lanes; for queries and keys the first 64 lanes of each head scaled by the position table
  (broadcast over batch and heads) and written twice, side by side; the head axis moved in front of the
  positions; batch and head merged into one axis of 32 for the attention kernel; and, after it, the way back:
  split into batch and head, positions in front of heads again, heads merged into 2048 lanes.
  The functions apply the printed program's own operations, so each buffer of the kernel's program after a host
  stretch IS one of them applied to the stretch's inputs.
-/
import proofs.«157867_j15144054686376_1_alg».proof.Proof.Gen.KernelIdeal
import proofs.«157867_j15144054686376_1_alg».proof.Proof.Spec

noncomputable section

namespace Cert.KernelIdeal.Chain

open Cert.KernelIdeal Cert.KernelIdeal.Gen Idealize.ShloMosaic

variable {F : FTy → Type} [FloatOps F]

/-- The position table broadcast over batch and heads. -/
def freqB (f : FVec F S2048x64 .f32) : FVec F S2x2048x16x64 .f32 :=
  broadcastInDim S2x2048x16x64 ![0, 1, 2, 3] bcast_S1x2048x1x64_S2x2048x16x64_0_1_2_3
    (broadcastInDim S1x2048x1x64 ![1, 3] bcast_S2048x64_S1x2048x1x64_1_3 f)

/-- The projection result as [batch, position, 6144]. -/
def unrows (y : FVec F S4096x6144 .f32) : FVec F S2x2048x6144 .f32 :=
  shapeCast S2x2048x6144 y shapeCasts_S4096x6144_S2x2048x6144

/-- The query columns, by heads. -/
def qPart (qkv : FVec F S2x2048x6144 .f32) : FVec F S2x2048x16x128 .f32 :=
  shapeCast S2x2048x16x128 (extractStridedSlice S2x2048x2048 ![0, 0, 0] qkv slices_S2x2048x6144_S2x2048x2048_0_0_0) shapeCasts_S2x2048x2048_S2x2048x16x128
/-- The key columns, by heads. -/
def kPart (qkv : FVec F S2x2048x6144 .f32) : FVec F S2x2048x16x128 .f32 :=
  shapeCast S2x2048x16x128 (extractStridedSlice S2x2048x2048 ![0, 0, 2048] qkv slices_S2x2048x6144_S2x2048x2048_0_0_2048) shapeCasts_S2x2048x2048_S2x2048x16x128
/-- The value columns, by heads. -/
def vPart (qkv : FVec F S2x2048x6144 .f32) : FVec F S2x2048x16x128 .f32 :=
  shapeCast S2x2048x16x128 (extractStridedSlice S2x2048x2048 ![0, 0, 4096] qkv slices_S2x2048x6144_S2x2048x2048_0_0_4096) shapeCasts_S2x2048x2048_S2x2048x16x128

/-- A head's first 64 lanes scaled by the position table. -/
def half (x : FVec F S2x2048x16x128 .f32) (f : FVec F S2048x64 .f32) : FVec F S2x2048x16x64 .f32 :=
  mulf (extractStridedSlice S2x2048x16x64 ![0, 0, 0, 0] x slices_S2x2048x16x128_S2x2048x16x64_0_0_0_0) (freqB f)

/-- The scaled half written twice along the lanes. -/
def rot (x : FVec F S2x2048x16x128 .f32) (f : FVec F S2048x64 .f32) : FVec F S2x2048x16x128 .f32 :=
  concatenate S2x2048x16x128 3 [⟨S2x2048x16x64, half x f⟩, ⟨S2x2048x16x64, half x f⟩] concatenates_S2x2048x16x64_S2x2048x16x64_S2x2048x16x128_d3

/-- Heads in front of positions. -/
def toHeads (x : FVec F S2x2048x16x128 .f32) : FVec F S2x16x2048x128 .f32 :=
  transpose S2x16x2048x128 [0, 2, 1, 3] x transposes_S2x2048x16x128_S2x16x2048x128_0_2_1_3

/-- The three attention operands as the programs return or use them. -/
def qOf (qkv : FVec F S2x2048x6144 .f32) (f : FVec F S2048x64 .f32) : FVec F S2x16x2048x128 .f32 := toHeads (rot (qPart qkv) f)
def kOf (qkv : FVec F S2x2048x6144 .f32) (f : FVec F S2048x64 .f32) : FVec F S2x16x2048x128 .f32 := toHeads (rot (kPart qkv) f)
def vOf (qkv : FVec F S2x2048x6144 .f32) : FVec F S2x16x2048x128 .f32 := toHeads (vPart qkv)

/-- Batch and head merged into one axis of 32. -/
def flat (x : FVec F S2x16x2048x128 .f32) : FVec F S32x2048x128 .f32 :=
  shapeCast S32x2048x128 x shapeCasts_S2x16x2048x128_S32x2048x128
/-- … and split again. -/
def unflat (y : FVec F S32x2048x128 .f32) : FVec F S2x16x2048x128 .f32 :=
  shapeCast S2x16x2048x128 y shapeCasts_S32x2048x128_S2x16x2048x128
/-- The attention result back as [4096, 2048]: positions in front of heads, heads merged into the lanes. -/
def merge (y : FVec F S2x16x2048x128 .f32) : FVec F S4096x2048 .f32 :=
  shapeCast S4096x2048 (transpose S2x2048x16x128 [0, 2, 1, 3] y transposes_S2x16x2048x128_S2x2048x16x128_0_2_1_3) shapeCasts_S2x2048x16x128_S4096x2048

/-! ## The kernel program's results as functions of the arguments, at the extended reals -/

/-- The projection of the arguments, as [batch, position, 6144]: x as [4096, 2048] rows and the bias as a [1, 6144]
    row (the changes of float format are the identity), `Spec.proj` of them, the rows split into batch and position. -/
def qkvOf (x0 : FVec Ideal S2x2048x2048 .f32) (x1 : FVec Ideal S6144x2048 .f32) (x2 : FVec Ideal S6144 .f32) : FVec Ideal S2x2048x6144 .f32 :=
  unrows (Cert.Spec.proj (truncf (F := Ideal) .bf16 (shapeCast S4096x2048 x0 shapeCasts_S2x2048x2048_S4096x2048) bitsLt_bf16_f32)
    (truncf (F := Ideal) (s := S6144x2048) .bf16 x1 bitsLt_bf16_f32) (shapeCast (s := S6144) S1x6144 x2 shapeCasts_S6144_S1x6144))

/-- The attention result from the projection `Q` and the position table `f`. -/
def yOf (Q : FVec Ideal S2x2048x6144 .f32) (f : FVec Ideal S2048x64 .f32) : FVec Ideal S4096x2048 .f32 :=
  merge (unflat (Cert.Spec.attn (flat (qOf Q f)) (flat (kOf Q f)) (flat (vOf Q))))

end Cert.KernelIdeal.Chain

end
-- ==== Proof.ProjPayload.lean ====
/-
  The projection kernel's body at one entry. The body multiplies its [1024, 2048] block of x against its [1024, 2048]
  block of the weight, contracting the second axis of both, into a zero accumulator, and adds the [1, 1024] bias block
  broadcast down the rows. Read at entry (r, f) of the [1024, 1024] result on the extended reals this is
  Σ_e x[r, e] · w[f, e] + b[0, f]: `Spec.projAt` of the three blocks.
-/
import proofs.«157867_j15144054686376_1_alg».proof.Proof.Gen.KernelIdeal.Skeleton
import proofs.«157867_j15144054686376_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Cert.KernelIdeal Cert.KernelIdeal.Gen
open Idealize.ShloMosaic Idealize.ShloMosaic.ValueIdx

/-- The left operand's kept axis: its row is the result's row. -/
theorem pay_lhs_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The left operand's contracted axis carries the contraction index's one coordinate. -/
theorem pay_lhs_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q

/-- The right operand's kept axis: its row is the result's column. -/
theorem pay_rhs_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- The right operand's contracted axis carries the contraction index's one coordinate. -/
theorem pay_rhs_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product at entry (r, f) into the zero accumulator: Σ_e x[r, e] · w[f, e]. -/
theorem pay_dot_apply (x w : FVec Ideal S1024x2048 .bf16) (r f : Fin 1024) :
    matmul (F := Ideal) dot_S1024x2048_S1024x2048_S1024x1024_1_1_0_0_n_n none x w (constant (F := Ideal) S1024x1024 .f32 0x00000000#32) (ix2 r f)
      = ∑ e : Fin 2048, x (ix2 r e) * w (ix2 f e) := by
  refine (Ideal.matmul_constant_zero_apply dot_S1024x2048_S1024x2048_S1024x1024_1_1_0_0_n_n none x w (ix2 r f)).trans ?_
  rw [← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 r f) ((ValueIdx.contrEquiv1 dot_S1024x2048_S1024x2048_S1024x1024_1_1_0_0_n_n 2048 rfl rfl).symm k) = ix2 r k :=
    funext fun a => Fin.ext (by
      match a with
      | ⟨0, _⟩ => exact pay_lhs_0 _ _
      | ⟨1, _⟩ => exact (pay_lhs_1 _ _).trans hk)
  have er : dot_S1024x2048_S1024x2048_S1024x1024_1_1_0_0_n_n.rhsIdx (ix2 r f) ((ValueIdx.contrEquiv1 dot_S1024x2048_S1024x2048_S1024x1024_1_1_0_0_n_n 2048 rfl rfl).symm k) = ix2 f k :=
    funext fun a => Fin.ext (by
      match a with
      | ⟨0, _⟩ => exact pay_rhs_0 _ _
      | ⟨1, _⟩ => exact (pay_rhs_1 _ _).trans hk)
  rw [el, er]

/-- The bias row broadcast down the rows, at entry (r, f): b[0, f]. -/
theorem pay_bias_apply (b : FVec Ideal S1x1024 .f32) (r f : Fin 1024) :
    broadcastTo S1024x1024 b broadcasts_S1x1024_S1024x1024 (ix2 r f) = b (ix2 (0 : Fin 1) f) := by
  refine broadcastTo_apply b broadcasts_S1x1024_S1024x1024 (ix2 r f) (ix2 (0 : Fin 1) f) fun a => ?_
  match a with
  | ⟨0, _⟩ => rfl
  | ⟨1, _⟩ => rfl

/-- The body's stored value at entry (r, f) of its block. -/
theorem pay_apply (x0 : Vec Ideal S1024x2048 .bf16) (x1 : Vec Ideal S1024x2048 .bf16) (x2 : Vec Ideal S1x1024 .f32)
    (r : Fin 1024) (f : Fin 1024) :
    k0_pay1 (F := Ideal) x0 x1 x2 (ix2 r f) = Cert.Spec.projAt x0 x1 x2 r f := by
  unfold k0_pay1
  rw [shapeCast_self, shapeCast_self, shapeCast_self]
  refine (ValueIdx.addf_apply _ _ (ix2 r f)).trans ?_
  rw [pay_dot_apply, pay_bias_apply]
  rfl

end Cert.KernelIdeal.ProjValue

end
-- ==== Proof.ProjBlock.lean ====
/-
  The projection kernel's result array. Grid point (i, j) of the 4 × 6 grid multiplies rows 1024·i … 1024·i + 1023 of
  x against rows 1024·j … 1024·j + 1023 of the weight over the whole contraction axis and adds the bias entries
  1024·j … 1024·j + 1023; it writes block (i, j) of the [4096, 6144] result. So what a point writes back is that
  block of `Spec.proj` of the whole operand arrays, the 24 blocks tile the array, and the array ends at `Spec.proj`.
-/
import proofs.«157867_j15144054686376_1_alg».proof.Proof.Gen.KernelIdeal.Frame
import proofs.«157867_j15144054686376_1_alg».proof.Proof.Spec
import proofs.«157867_j15144054686376_1_alg».proof.Proof.ProjPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, as the constant function. -/
theorem zeros2 : (![0, 0] : Fin 2 → Nat) = fun _ => 0 := funext fun a => by fin_cases a <;> rfl

/-- The index maps over the 4 × 6 grid. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 5 :=
  (by decide +kernel : ∀ t : Fin grid0.N, _)

/-- Every block of the result is some point's. -/
theorem index_onto : ∀ (a : Fin 4) (b : Fin 6), ∃ t : Fin cfg0.N, win0_3.index t = ![a.val, b.val] :=
  (by decide +kernel : ∀ (a : Fin 4) (b : Fin 6), ∃ t : Fin grid0.N, win0_3.index t = ![a.val, b.val])

section Blocks

variable (V : (c : Dev nD) → (b : Ref sig .tc) → Buf (Elt Ideal) ((c : Thread nD τ).loc b))

/-- An entry of the x block at a point is the x array's entry in the rows the point's result block spans. -/
theorem xblk_apply (c : Dev nD) (t : Fin cfg0.N) (p : Fin 1024) (e : Fin 2048)
    (h : win0_3.index t (0 : Fin 2) * 1024 + p.val < 4096) :
    (iblk0 (F := Ideal) V c 0 t : Vec Ideal S1024x2048 .bf16) (ix2 p e)
      = (V c main_v1 : S4096x2048.Idx → Elt Ideal .bf16) (ix2 ⟨win0_3.index t (0 : Fin 2) * 1024 + p.val, h⟩ e) := by
  obtain ⟨e0, e1, -⟩ := index_facts t
  show V c main_v1 (((cfg0.win 0).blk t).view.emb (ix2 p e)) = V c main_v1 _
  congr 1
  funext a; apply Fin.ext
  match a with
  | ⟨0, _⟩ => show win0_0.index t (0 : Fin 2) * 1024 + 1 * p.val = win0_3.index t (0 : Fin 2) * 1024 + p.val; omega
  | ⟨1, _⟩ => show win0_0.index t (1 : Fin 2) * 2048 + 1 * e.val = e.val; omega

/-- An entry of the weight block at a point is the weight array's entry in the rows the point's result block's columns name. -/
theorem wblk_apply (c : Dev nD) (t : Fin cfg0.N) (q : Fin 1024) (e : Fin 2048)
    (h : win0_3.index t (1 : Fin 2) * 1024 + q.val < 6144) :
    (iblk0 (F := Ideal) V c 1 t : Vec Ideal S1024x2048 .bf16) (ix2 q e)
      = (V c main_v2 : S6144x2048.Idx → Elt Ideal .bf16) (ix2 ⟨win0_3.index t (1 : Fin 2) * 1024 + q.val, h⟩ e) := by
  obtain ⟨-, -, e2, e3, -⟩ := index_facts t
  show V c main_v2 (((cfg0.win 1).blk t).view.emb (ix2 q e)) = V c main_v2 _
  congr 1
  funext a; apply Fin.ext
  match a with
  | ⟨0, _⟩ => show win0_1.index t (0 : Fin 2) * 1024 + 1 * q.val = win0_3.index t (1 : Fin 2) * 1024 + q.val; omega
  | ⟨1, _⟩ => show win0_1.index t (1 : Fin 2) * 2048 + 1 * e.val = e.val; omega

/-- An entry of the bias block at a point is the bias array's entry in the point's result block's columns. -/
theorem bblk_apply (c : Dev nD) (t : Fin cfg0.N) (q : Fin 1024)
    (h : win0_3.index t (1 : Fin 2) * 1024 + q.val < 6144) :
    (iblk0 (F := Ideal) V c 2 t : Vec Ideal S1x1024 .f32) (ix2 (0 : Fin 1) q)
      = (V c main_v3 : S1x6144.Idx → Elt Ideal .f32) (ix2 (0 : Fin 1) ⟨win0_3.index t (1 : Fin 2) * 1024 + q.val, h⟩) := by
  obtain ⟨-, -, -, -, e4, e5, -⟩ := index_facts t
  show V c main_v3 (((cfg0.win 2).blk t).view.emb (ix2 (0 : Fin 1) q)) = V c main_v3 _
  congr 1
  funext a; apply Fin.ext
  match a with
  | ⟨0, _⟩ => show win0_2.index t (0 : Fin 2) * 1 + 1 * (0 : Fin 1).val = (0 : Fin 1).val; rw [e4]; rfl
  | ⟨1, _⟩ => show win0_2.index t (1 : Fin 2) * 1024 + 1 * q.val = win0_3.index t (1 : Fin 2) * 1024 + q.val; omega

/-- What a point writes back is its block of the projection of the whole operand arrays. -/
theorem flushed_eq (c : Dev nD) (t : Fin cfg0.N) :
    (dat0 (F := Ideal) V c).flushed 3 t
      = ((cfg0.win 3).blk t).view.read (Elt Ideal) (Cert.Spec.proj (V c main_v1) (V c main_v2) (V c main_v3)) := by
  show (cfg0.win 3).cut (grid0.coords t) ((dat0 V c).after 3 t) = _
  rw [after0_3]
  unfold out0_3
  rw [View.canon_unit_zero zeros2]
  simp only [View.ld_unit_zero (S := S1024x2048) zeros2, View.ld_unit_zero (S := S1x1024) zeros2]
  funext y
  obtain ⟨p, q, rfl⟩ : ∃ (p : Fin 1024) (q : Fin 1024), y = ix2 p q := ⟨y 0, y 1, eq_ix2 y⟩
  obtain ⟨-, -, -, -, -, -, b0, b1⟩ := index_facts t
  have hp := p.isLt
  have hq := q.isLt
  have hR : win0_3.index t (0 : Fin 2) * 1024 + p.val < 4096 := by omega
  have hC : win0_3.index t (1 : Fin 2) * 1024 + q.val < 6144 := by omega
  refine (pay_apply _ _ _ p q).trans ?_
  have hemb : ((cfg0.win 3).blk t).view.emb (ix2 p q)
      = (ix2 (⟨win0_3.index t (0 : Fin 2) * 1024 + p.val, hR⟩ : Fin 4096) (⟨win0_3.index t (1 : Fin 2) * 1024 + q.val, hC⟩ : Fin 6144) : S4096x6144.Idx) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1024 + 1 * q.val = win0_3.index t (1 : Fin 2) * 1024 + q.val; omega
  show _ = Cert.Spec.proj (V c main_v1) (V c main_v2) (V c main_v3) (((cfg0.win 3).blk t).view.emb (ix2 p q))
  rw [hemb]
  show _ = Cert.Spec.projAt (V c main_v1) (V c main_v2) (V c main_v3)
    (⟨win0_3.index t (0 : Fin 2) * 1024 + p.val, hR⟩ : Fin 4096) (⟨win0_3.index t (1 : Fin 2) * 1024 + q.val, hC⟩ : Fin 6144)
  unfold Cert.Spec.projAt
  refine congrArg₂ (· + ·) (Finset.sum_congr rfl fun e _ => ?_) (bblk_apply V c t q hC)
  exact congrArg₂ (· * ·) (xblk_apply V c t p e hR) (wblk_apply V c t q e hC)

/-- An index of the result array is in a point's block iff each coordinate is in the block's range on its axis. -/
theorem mem_blk (t : Fin cfg0.N) (i : S4096x6144.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v4).slice (win0_3.rect t)).set ↔ _
  rw [View.set_slice_whole, Rect.mem_set_unit]
  exact Iff.rfl

/-- The 24 blocks cover the result array: entry (R, Fc) is in the block of index (R / 1024, Fc / 1024). -/
theorem cover (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

end Blocks

/-- After the projection region the result array holds `x · wᵀ + b` of the operand arrays as the region found them. -/
theorem arr_proj (V : (c : Dev nD) → (b : Ref sig .tc) → Buf (Elt Ideal) ((c : Thread nD τ).loc b)) (c : Dev nD) :
    (dat0 (F := Ideal) V c).arrAt 3 cfg0.N = Cert.Spec.proj (V c main_v1) (V c main_v2) (V c main_v3) :=
  (dat0 (F := Ideal) V c).arrAt_eq_of_cover 3 (Cert.Spec.proj (V c main_v1) (V c main_v2) (V c main_v3))
    (fun t _ => flushed_eq V c t) cover

end Cert.KernelIdeal.ProjValue

end
-- ==== Proof.AttnPayload.lean ====
/-
  The attention kernel's body at one entry. From its [1, 1024, 128] query block and the [1, 2048, 128] key and value
  blocks of one head the body forms the scores q · kᵀ (contracting the 128 lanes, into a zero accumulator), scales them,
  takes each row's maximum (a lane reduction from −∞, then max against −∞), subtracts it, exponentiates, sums each row,
  divides, and multiplies the normalised scores against the values (contracting the 2048 key rows, into a zero
  accumulator). Read at entry (0, r, d) on the extended reals this is `Spec.attnAt` of the three blocks at head 0.
-/
import proofs.«157867_j15144054686376_1_alg».proof.Proof.Gen.KernelIdeal.Skeleton
import proofs.«157867_j15144054686376_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnValue

open Cert.KernelIdeal Cert.KernelIdeal.Gen
open Idealize.ShloMosaic Idealize.ShloMosaic.ValueIdx

/-! ## The two products' operand indices -/

theorem lhs_qk_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_qk_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhs_qk_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_qk_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

theorem lhs_pv_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_pv_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_pv_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_pv_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product q · kᵀ into zero at (r, j): the sum over the 128 lanes. -/
theorem matmul_qk_apply {φ₁ φ₂ : FTy} (a : FVec Ideal S1024x128 φ₁) (b : FVec Ideal S2048x128 φ₂) (r : Fin 1024) (j : Fin 2048) :
    matmul (F := Ideal) dot_S1024x128_S2048x128_S1024x2048_1_1_0_0_n_n none a b (constant (F := Ideal) S1024x2048 .f32 0x00000000#32) (ix2 r j)
      = ∑ dd : Fin 128, a (ix2 r dd) * b (ix2 j dd) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r j) ((ValueIdx.contrEquiv1 dot_S1024x128_S2048x128_S1024x2048_1_1_0_0_n_n 128 rfl rfl).symm k) = ix2 r k := funext fun c => Fin.ext (by
    match c with
    | ⟨0, _⟩ => exact lhs_qk_0 _ _
    | ⟨1, _⟩ => exact (lhs_qk_1 _ _).trans hk)
  have er : dot_S1024x128_S2048x128_S1024x2048_1_1_0_0_n_n.rhsIdx (ix2 r j) ((ValueIdx.contrEquiv1 dot_S1024x128_S2048x128_S1024x2048_1_1_0_0_n_n 128 rfl rfl).symm k) = ix2 j k := funext fun c => Fin.ext (by
    match c with
    | ⟨0, _⟩ => exact rhs_qk_0 _ _
    | ⟨1, _⟩ => exact (rhs_qk_1 _ _).trans hk)
  rw [el, er]

/-- The product p · v into zero at (r, d): the sum over the 2048 key rows. -/
theorem matmul_pv_apply {φ₁ φ₂ : FTy} (a : FVec Ideal S1024x2048 φ₁) (b : FVec Ideal S2048x128 φ₂) (r : Fin 1024) (d : Fin 128) :
    matmul (F := Ideal) dot_S1024x2048_S2048x128_S1024x128_1_0_0_1_n_n none a b (constant (F := Ideal) S1024x128 .f32 0x00000000#32) (ix2 r d)
      = ∑ j : Fin 2048, a (ix2 r j) * b (ix2 j d) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r d) ((ValueIdx.contrEquiv1 dot_S1024x2048_S2048x128_S1024x128_1_0_0_1_n_n 2048 rfl rfl).symm k) = ix2 r k := funext fun c => Fin.ext (by
    match c with
    | ⟨0, _⟩ => exact lhs_pv_0 _ _
    | ⟨1, _⟩ => exact (lhs_pv_1 _ _).trans hk)
  have er : dot_S1024x2048_S2048x128_S1024x128_1_0_0_1_n_n.rhsIdx (ix2 r d) ((ValueIdx.contrEquiv1 dot_S1024x2048_S2048x128_S1024x128_1_0_0_1_n_n 2048 rfl rfl).symm k) = ix2 k d := funext fun c => Fin.ext (by
    match c with
    | ⟨0, _⟩ => exact (rhs_pv_0 _ _).trans hk
    | ⟨1, _⟩ => exact rhs_pv_1 _ _)
  rw [el, er]

/-! ## The lane reductions and the keepdims broadcast -/

/-- The index over row r with lane j inserted is (r, j). -/
theorem lift_row (r : Fin 1024) (j : Fin 2048) :
    (reduces_S1024x2048_S1024 : S1024x2048.Reduces [1] S1024).lift (ix1 r) j = ix2 r j :=
  funext fun c => Fin.ext (by
    match c with
    | ⟨0, _⟩ => rfl
    | ⟨1, _⟩ => rfl)

/-- A row's maximum: the fold of max from −∞ over the 2048 lanes. -/
theorem rowmax_apply (s : FVec Ideal S1024x2048 .f32) (r : Fin 1024) :
    multiReduction (F := Ideal) .maximumf [1] S1024 s 0xFF800000#32 reduces_S1024x2048_S1024 (.inl rfl) rfl (ix1 r)
      = (Finset.univ : Finset (Fin 2048)).fold max (Ideal.ofBits .f32 0xFF800000#32) (fun j => s (ix2 r j)) := by
  refine (Ideal.multiReduction_maximumf_single s 0xFF800000#32 reduces_S1024x2048_S1024 (.inl rfl) rfl (ix1 r)).trans ?_
  show (Finset.univ : Finset (Fin 2048)).fold max (Ideal.ofBits .f32 0xFF800000#32)
      (fun j => s ((reduces_S1024x2048_S1024 : S1024x2048.Reduces [1] S1024).lift (ix1 r) j)) = _
  exact congrArg (fun f => (Finset.univ : Finset (Fin 2048)).fold max (Ideal.ofBits .f32 0xFF800000#32) f)
    (funext fun j => congrArg s (lift_row r j))

/-- A row's sum over the 2048 lanes. -/
theorem rowsum_apply (e : FVec Ideal S1024x2048 .f32) (r : Fin 1024) :
    multiReduction (F := Ideal) .add [1] S1024 e 0x00000000#32 reduces_S1024x2048_S1024 (.inl rfl) rfl (ix1 r)
      = ∑ j : Fin 2048, e (ix2 r j) := by
  refine (Ideal.multiReduction_add_single e 0x00000000#32 reduces_S1024x2048_S1024 (.inl rfl) rfl (ix1 r)).trans ?_
  show ∑ j : Fin 2048, e ((reduces_S1024x2048_S1024 : S1024x2048.Reduces [1] S1024).lift (ix1 r) j) = _
  exact Finset.sum_congr rfl fun j _ => congrArg e (lift_row r j)

/-- A per-row vector cast to one column and broadcast along the lanes reads the row's entry. -/
theorem keepdims_apply {α : Type} (v : S1024.Idx → α) (r : Fin 1024) (j : Fin 2048) :
    broadcastTo S1024x2048 (shapeCast S1024x1 v shapeCasts_S1024_S1024x1) broadcasts_S1024x1_S1024x2048 (ix2 r j) = v (ix1 r) := by
  refine (broadcastTo_apply _ broadcasts_S1024x1_S1024x2048 (ix2 r j) (ix2 r (0 : Fin 1)) fun a => ?_).trans ?_
  · match a with
    | ⟨0, _⟩ => rfl
    | ⟨1, _⟩ => rfl
  · exact shapeCast_apply v shapeCasts_S1024_S1024x1 (ix2 r (0 : Fin 1)) (ix1 r) (by
      rw [Shape.rowMajor_val_one, Shape.rowMajor_val_two]
      show r.val = r.val * 1 + 0
      omega)

/-! ## The body's stages, named -/

/-- The exponential of a vector read at an index. -/
theorem exp_apply {s : Shape} {φ : FTy} (a : FVec Ideal s φ) (i : s.Idx) : exp a i = Ideal.exp (a i) := rfl

/-- The scaled scores the body forms: q · kᵀ over the 128 lanes, times the scale constant. -/
def scores (x0 : Vec Ideal S1x1024x128 .f32) (x1 : Vec Ideal S1x2048x128 .f32) : FVec Ideal S1024x2048 .f32 :=
  mulf (matmul dot_S1024x128_S2048x128_S1024x2048_1_1_0_0_n_n none
      (truncf .bf16 (shapeCast S1024x128 x0 shapeCasts_S1x1024x128_S1024x128 : FVec Ideal S1024x128 .f32) bitsLt_bf16_f32)
      (truncf .bf16 (shapeCast S2048x128 x1 shapeCasts_S1x2048x128_S2048x128 : FVec Ideal S2048x128 .f32) bitsLt_bf16_f32)
      (constant S1024x2048 .f32 0x00000000#32))
    (broadcast S1024x2048 (Scalar.ofBits .f32 0x3DB504F3#32))

theorem scores_apply (x0 : Vec Ideal S1x1024x128 .f32) (x1 : Vec Ideal S1x2048x128 .f32) (r : Fin 1024) (j : Fin 2048) :
    scores x0 x1 (ix2 r j) = Cert.Spec.score x0 x1 (0 : Fin 1) r j := by
  unfold scores Cert.Spec.score
  rw [mulf_apply, matmul_qk_apply, broadcast_apply]
  refine congrArg₂ (· * ·) (Finset.sum_congr rfl fun dd _ => ?_) rfl
  rw [truncf_apply, truncf_apply, shapeCast_1ab_ab_apply, shapeCast_1ab_ab_apply]

/-- Each row's maximum as the body takes it: the lane reduction from −∞, then max against −∞. -/
def rowmaxes (x0 : Vec Ideal S1x1024x128 .f32) (x1 : Vec Ideal S1x2048x128 .f32) : FVec Ideal S1024 .f32 :=
  maximumf (broadcast S1024 (Scalar.ofBits .f32 0xFF800000#32))
    (multiReduction .maximumf [1] S1024 (scores x0 x1) 0xFF800000#32 reduces_S1024x2048_S1024 (.inl rfl) rfl)

theorem rowmaxes_apply (x0 : Vec Ideal S1x1024x128 .f32) (x1 : Vec Ideal S1x2048x128 .f32) (r : Fin 1024) :
    rowmaxes x0 x1 (ix1 r) = Cert.Spec.rowMax x0 x1 (0 : Fin 1) r := by
  unfold rowmaxes Cert.Spec.rowMax Cert.Spec.negInf
  rw [maximumf_apply, broadcast_apply, rowmax_apply]
  refine congrArg₂ max rfl ?_
  exact congrArg (fun f => (Finset.univ : Finset (Fin 2048)).fold max (Ideal.ofBits .f32 0xFF800000#32) f)
    (funext fun j => scores_apply x0 x1 r j)

/-- The exponentials of the scores shifted by their row's maximum. -/
def expos (x0 : Vec Ideal S1x1024x128 .f32) (x1 : Vec Ideal S1x2048x128 .f32) : FVec Ideal S1024x2048 .f32 :=
  exp (subf (scores x0 x1)
    (broadcastTo S1024x2048 (shapeCast S1024x1 (rowmaxes x0 x1) shapeCasts_S1024_S1024x1) broadcasts_S1024x1_S1024x2048))

theorem expos_apply (x0 : Vec Ideal S1x1024x128 .f32) (x1 : Vec Ideal S1x2048x128 .f32) (r : Fin 1024) (j : Fin 2048) :
    expos x0 x1 (ix2 r j) = Cert.Spec.expo x0 x1 (0 : Fin 1) r j := by
  unfold expos Cert.Spec.expo
  rw [exp_apply, subf_apply, scores_apply, keepdims_apply, rowmaxes_apply]

/-- Each row's sum of exponentials. -/
def rowsums (x0 : Vec Ideal S1x1024x128 .f32) (x1 : Vec Ideal S1x2048x128 .f32) : FVec Ideal S1024 .f32 :=
  multiReduction .add [1] S1024 (expos x0 x1) 0x00000000#32 reduces_S1024x2048_S1024 (.inl rfl) rfl

theorem rowsums_apply (x0 : Vec Ideal S1x1024x128 .f32) (x1 : Vec Ideal S1x2048x128 .f32) (r : Fin 1024) :
    rowsums x0 x1 (ix1 r) = Cert.Spec.rowSum x0 x1 (0 : Fin 1) r := by
  unfold rowsums Cert.Spec.rowSum
  rw [rowsum_apply]
  exact Finset.sum_congr rfl fun j _ => expos_apply x0 x1 r j

/-- The normalised scores. -/
def probs (x0 : Vec Ideal S1x1024x128 .f32) (x1 : Vec Ideal S1x2048x128 .f32) : FVec Ideal S1024x2048 .f32 :=
  divf (expos x0 x1)
    (broadcastTo S1024x2048 (shapeCast S1024x1 (rowsums x0 x1) shapeCasts_S1024_S1024x1) broadcasts_S1024x1_S1024x2048)

theorem probs_apply (x0 : Vec Ideal S1x1024x128 .f32) (x1 : Vec Ideal S1x2048x128 .f32) (r : Fin 1024) (j : Fin 2048) :
    probs x0 x1 (ix2 r j) = Ideal.div (Cert.Spec.expo x0 x1 (0 : Fin 1) r j) (Cert.Spec.rowSum x0 x1 (0 : Fin 1) r) := by
  unfold probs
  rw [divf_apply, expos_apply, keepdims_apply, rowsums_apply]

/-- The body is the normalised scores times the values, with the unit axis put back. -/
theorem pay_eq (x0 : Vec Ideal S1x1024x128 .f32) (x1 : Vec Ideal S1x2048x128 .f32) (x2 : Vec Ideal S1x2048x128 .f32) :
    k1_pay1 (F := Ideal) x0 x1 x2
      = shapeCast S1x1024x128
          (matmul dot_S1024x2048_S2048x128_S1024x128_1_0_0_1_n_n none
            (truncf .bf16 (probs x0 x1) bitsLt_bf16_f32)
            (truncf .bf16 (shapeCast S2048x128 x2 shapeCasts_S1x2048x128_S2048x128 : FVec Ideal S2048x128 .f32) bitsLt_bf16_f32)
            (constant S1024x128 .f32 0x00000000#32))
          shapeCasts_S1024x128_S1x1024x128 := rfl

/-- The body's stored value at entry (0, r, d) of its block. -/
theorem pay_apply (x0 : Vec Ideal S1x1024x128 .f32) (x1 : Vec Ideal S1x2048x128 .f32) (x2 : Vec Ideal S1x2048x128 .f32)
    (r : Fin 1024) (d : Fin 128) :
    k1_pay1 (F := Ideal) x0 x1 x2 (ix3 (0 : Fin 1) r d) = Cert.Spec.attnAt x0 x1 x2 (0 : Fin 1) r d := by
  rw [pay_eq, shapeCast_ab_1ab_apply, matmul_pv_apply]
  unfold Cert.Spec.attnAt
  refine Finset.sum_congr rfl fun j _ => ?_
  rw [truncf_apply, truncf_apply, probs_apply, shapeCast_1ab_ab_apply]

end Cert.KernelIdeal.AttnValue

end
-- ==== Proof.AttnBlock.lean ====
/-
  The attention kernel's result array. Grid point (h, i) of the 32 × 2 grid takes query rows 1024·i … 1024·i + 1023 of
  head h and all 2048 key and value rows of head h, and writes block (h, i) of the [32, 2048, 128] result. So what a
  point writes back is that block of `Spec.attn` of the whole operand arrays, the 64 blocks tile the array, and the
  array ends at `Spec.attn`.
-/
import proofs.«157867_j15144054686376_1_alg».proof.Proof.Gen.KernelIdeal.Frame
import proofs.«157867_j15144054686376_1_alg».proof.Proof.Spec
import proofs.«157867_j15144054686376_1_alg».proof.Proof.AttnPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat)

/-! The steps: the index maps over the grid, each block as rows of its array, an entry's dependence on those rows alone,
    what a point writes back, and the cover of the result array by the blocks. -/
namespace Block

/-- The offsets of a whole-block access are all zero. -/
theorem hz3 : (![0, 0, 0] : Fin 3 → Nat) = fun _ => 0 := funext fun a => by fin_cases a <;> rfl

/-- The index maps, decided over the 32 × 2 grid: the query window moves with the result window on the head and
    row-block axes, the key and value windows with it on the head axis only, and the result's block index is
    (head, row block, 0) with head below 32 and row block below 2. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 1 ∧ win1_3.index t (2 : Fin 3) = 0 :=
  (by decide +kernel : ∀ t : Fin grid1.N, _)

/-- Every (head, row block) is some grid point's result block. -/
theorem idx_onto : ∀ (a : Fin 32) (b : Fin 2), ∃ t : Fin cfg1.N, win1_3.index t = ![a.val, b.val, 0] :=
  (by decide +kernel : ∀ (a : Fin 32) (b : Fin 2), ∃ t : Fin grid1.N, win1_3.index t = ![a.val, b.val, 0])

/-- Softmax attention at one entry depends on the query array only through the query row and on the key and value
    arrays only through the head's rows: if a second triple of arrays agrees on those, the entries agree. -/
theorem attnAt_congr {nh ns nk nd nh' ns' : Nat}
    (q' : (⟨3, ![nh', ns', nd]⟩ : Shape).Idx → EReal) (k' v' : (⟨3, ![nh', nk, nd]⟩ : Shape).Idx → EReal)
    (q : (⟨3, ![nh, ns, nd]⟩ : Shape).Idx → EReal) (k v : (⟨3, ![nh, nk, nd]⟩ : Shape).Idx → EReal)
    (h' : Fin nh') (r : Fin ns') (h : Fin nh) (s : Fin ns)
    (hq : ∀ dd, q' (ix3 h' r dd) = q (ix3 h s dd))
    (hk : ∀ j dd, k' (ix3 h' j dd) = k (ix3 h j dd))
    (hv : ∀ j dd, v' (ix3 h' j dd) = v (ix3 h j dd)) (d : Fin nd) :
    Spec.attnAt q' k' v' h' r d = Spec.attnAt q k v h s d := by
  have hs : ∀ j, Spec.score q' k' h' r j = Spec.score q k h s j := fun j => by
    unfold Spec.score; simp only [hq, hk]
  have hm : Spec.rowMax q' k' h' r = Spec.rowMax q k h s := by
    unfold Spec.rowMax; simp only [hs]
  have he : ∀ j, Spec.expo q' k' h' r j = Spec.expo q k h s j := fun j => by
    unfold Spec.expo; rw [hs, hm]
  have hsum : Spec.rowSum q' k' h' r = Spec.rowSum q k h s := by
    unfold Spec.rowSum; simp only [he]
  unfold Spec.attnAt; simp only [he, hsum, hv]

section Blocks
variable (V : (c : Dev nD) → (b : Ref sig .tc) → Buf (Elt Ideal) ((c : Thread nD τ).loc b)) (c : Dev nD)

/-- The query block at a grid point: its row r is row 1024·i + r of head h of the query array, (h, i) the point's
    result block index. -/
theorem q_block (t : Fin cfg1.N) (r : Fin 1024) (dd : Fin 128) (h : Fin 32) (s : Fin 2048)
    (hh : h.val = win1_3.index t (0 : Fin 3)) (hs : s.val = win1_3.index t (1 : Fin 3) * 1024 + r.val) :
    (iblk1 (F := Ideal) V c 0 t : Vec Ideal S1x1024x128 .f32) (ix3 (0 : Fin 1) r dd)
      = (V c main_v24 : S32x2048x128.Idx → Elt Ideal .f32) (ix3 h s dd) := by
  obtain ⟨e0, e1, e2, -⟩ := idx_facts t
  show V c main_v24 (((cfg1.win 0).blk t).view.emb _) = V c main_v24 _
  congr 1; funext a; apply Fin.ext
  match a with
  | ⟨0, _⟩ => show win1_0.index t (0 : Fin 3) * 1 + 1 * 0 = h.val; omega
  | ⟨1, _⟩ => show win1_0.index t (1 : Fin 3) * 1024 + 1 * r.val = s.val; omega
  | ⟨2, _⟩ => show win1_0.index t (2 : Fin 3) * 128 + 1 * dd.val = dd.val; omega

/-- The key block at a grid point is head h's rows of the key array. -/
theorem k_block (t : Fin cfg1.N) (j : Fin 2048) (dd : Fin 128) (h : Fin 32)
    (hh : h.val = win1_3.index t (0 : Fin 3)) :
    (iblk1 (F := Ideal) V c 1 t : Vec Ideal S1x2048x128 .f32) (ix3 (0 : Fin 1) j dd)
      = (V c main_v25 : S32x2048x128.Idx → Elt Ideal .f32) (ix3 h j dd) := by
  obtain ⟨-, -, -, e0, e1, e2, -⟩ := idx_facts t
  show V c main_v25 (((cfg1.win 1).blk t).view.emb _) = V c main_v25 _
  congr 1; funext a; apply Fin.ext
  match a with
  | ⟨0, _⟩ => show win1_1.index t (0 : Fin 3) * 1 + 1 * 0 = h.val; omega
  | ⟨1, _⟩ => show win1_1.index t (1 : Fin 3) * 2048 + 1 * j.val = j.val; omega
  | ⟨2, _⟩ => show win1_1.index t (2 : Fin 3) * 128 + 1 * dd.val = dd.val; omega

/-- The value block at a grid point is head h's rows of the value array. -/
theorem v_block (t : Fin cfg1.N) (j : Fin 2048) (dd : Fin 128) (h : Fin 32)
    (hh : h.val = win1_3.index t (0 : Fin 3)) :
    (iblk1 (F := Ideal) V c 2 t : Vec Ideal S1x2048x128 .f32) (ix3 (0 : Fin 1) j dd)
      = (V c main_v26 : S32x2048x128.Idx → Elt Ideal .f32) (ix3 h j dd) := by
  obtain ⟨-, -, -, -, -, -, e0, e1, e2, -⟩ := idx_facts t
  show V c main_v26 (((cfg1.win 2).blk t).view.emb _) = V c main_v26 _
  congr 1; funext a; apply Fin.ext
  match a with
  | ⟨0, _⟩ => show win1_2.index t (0 : Fin 3) * 1 + 1 * 0 = h.val; omega
  | ⟨1, _⟩ => show win1_2.index t (1 : Fin 3) * 2048 + 1 * j.val = j.val; omega
  | ⟨2, _⟩ => show win1_2.index t (2 : Fin 3) * 128 + 1 * dd.val = dd.val; omega

end Blocks

section Result
variable (V : (c : Dev nD) → (b : Ref sig .tc) → Buf (Elt Ideal) ((c : Thread nD τ).loc b)) (c : Dev nD)

/-- Attention of a grid point's three blocks at head 0, row r is attention of the whole arrays at head h,
    row 1024·i + r, (h, i) the point's result block index. -/
theorem block_attn (t : Fin cfg1.N) (r : Fin 1024) (d : Fin 128) (h : Fin 32) (s : Fin 2048) (d' : Fin 128)
    (hh : h.val = win1_3.index t (0 : Fin 3)) (hs : s.val = win1_3.index t (1 : Fin 3) * 1024 + r.val)
    (hd : d'.val = win1_3.index t (2 : Fin 3) * 128 + d.val) :
    Cert.Spec.attnAt (iblk1 (F := Ideal) V c 0 t : Vec Ideal S1x1024x128 .f32) (iblk1 (F := Ideal) V c 1 t : Vec Ideal S1x2048x128 .f32)
        (iblk1 (F := Ideal) V c 2 t : Vec Ideal S1x2048x128 .f32) (0 : Fin 1) r d
      = Cert.Spec.attnAt (V c main_v24 : S32x2048x128.Idx → Elt Ideal .f32) (V c main_v25 : S32x2048x128.Idx → Elt Ideal .f32)
        (V c main_v26 : S32x2048x128.Idx → Elt Ideal .f32) h s d' := by
  obtain ⟨-, -, -, -, -, -, -, -, -, -, -, e2⟩ := idx_facts t
  obtain rfl : d' = d := Fin.ext (by omega)
  exact attnAt_congr _ _ _ _ _ _ 0 r h s (fun dd => q_block V c t r dd h s hh hs) (fun j dd => k_block V c t j dd h hh)
    (fun j dd => v_block V c t j dd h hh) d'

/-- What grid point t writes back is its block of softmax attention of the whole operand arrays. -/
theorem flushed_eq (t : Fin cfg1.N) :
    (dat1 (F := Ideal) V c).flushed 3 t
      = ((cfg1.win 3).blk t).view.read (Elt Ideal) (Cert.Spec.attn (V c main_v24) (V c main_v25) (V c main_v26)) := by
  show (cfg1.win 3).cut (grid1.coords t) ((dat1 V c).after 3 t) = _
  rw [after1_3]
  unfold out1_3
  rw [View.canon_unit_zero hz3]
  simp only [View.ld_unit_zero (S := S1x1024x128) hz3, View.ld_unit_zero (S := S1x2048x128) hz3]
  refine funext fun (y : S1x1024x128.Idx) => ?_
  obtain ⟨z, r, d, rfl⟩ : ∃ z r d, y = ix3 z r d := ⟨y 0, y 1, y 2, eq_ix3 y⟩
  obtain rfl : z = 0 := Subsingleton.elim _ _
  show k1_pay1 (F := Ideal) (iblk1 V c 0 t) (iblk1 V c 1 t) (iblk1 V c 2 t) (ix3 (0 : Fin 1) r d)
    = Cert.Spec.attn (V c main_v24) (V c main_v25) (V c main_v26) (((cfg1.win 3).blk t).view.emb (ix3 (0 : Fin 1) r d))
  refine (pay_apply _ _ _ r d).trans ?_
  unfold Cert.Spec.attn
  refine block_attn V c t r d _ _ _ ?_ ?_ ?_
  · show win1_3.index t (0 : Fin 3) * 1 + 1 * 0 = win1_3.index t (0 : Fin 3); omega
  · show win1_3.index t (1 : Fin 3) * 1024 + 1 * r.val = win1_3.index t (1 : Fin 3) * 1024 + r.val; omega
  · show win1_3.index t (2 : Fin 3) * 128 + 1 * d.val = win1_3.index t (2 : Fin 3) * 128 + d.val; omega

/-- An index of the result array is in point t's block iff each coordinate is in the block's range on its axis. -/
theorem mem_blk (t : Fin cfg1.N) (i : S32x2048x128.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v27).slice (win1_3.rect t)).set ↔ _
  rw [View.set_slice_whole, Rect.mem_set_unit]
  exact Iff.rfl

/-- The 64 blocks cover the result array: entry (H, S, D) is in the block of the point with block index (H, S / 1024, 0). -/
theorem covered (i : S32x2048x128.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

end Result

end Block

/-- After the attention region the result array holds softmax attention of the operand arrays as the region found them. -/
theorem arr_attn (V : (c : Dev nD) → (b : Ref sig .tc) → Buf (Elt Ideal) ((c : Thread nD τ).loc b)) (c : Dev nD) :
    (dat1 (F := Ideal) V c).arrAt 3 cfg1.N = Cert.Spec.attn (V c main_v24) (V c main_v25) (V c main_v26) :=
  (dat1 (F := Ideal) V c).arrAt_eq_of_cover 3 (Cert.Spec.attn (V c main_v24) (V c main_v25) (V c main_v26))
    (fun t _ => Block.flushed_eq V c t) Block.covered

end Cert.KernelIdeal.AttnValue

end
-- ==== Proof.KernelFold.lean ====
/-
  What the kernel's program leaves in its three results, read off the fold through its segments.
  Before the projection region the host casts x to [4096, 2048] and reshapes the bias to [1, 6144] (the changes of
  float format are the identity on the extended reals). The region leaves `Spec.proj` of them. The host stretch
  between the regions is the shared chain of Chain.lean applied to that array; the attention region leaves
  `Spec.attn` of the three flattened operands; the last stretch unflattens and merges. The key and value results
  are buffers of the middle stretch that nothing later writes.
-/
import proofs.«157867_j15144054686376_1_alg».proof.Proof.Gen.KernelIdeal.Frame
import proofs.«157867_j15144054686376_1_alg».proof.Proof.Chain
import proofs.«157867_j15144054686376_1_alg».proof.Proof.Spec
import proofs.«157867_j15144054686376_1_alg».proof.Proof.ProjBlock
import proofs.«157867_j15144054686376_1_alg».proof.Proof.AttnBlock
import Idealize.ShloMosaic.Lib.StableHlo.Run

set_option maxRecDepth 16384

noncomputable section

namespace Cert.KernelIdeal.Fold

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the projection region -/

theorem W1_v1 (c : Dev nD) : (W1 m ρ c (Proc.devRef .tc main_v1) : FVec Ideal S4096x2048 .bf16)
    = truncf (F := Ideal) .bf16 (shapeCast S4096x2048 (m ((c : Thread nD τ).loc main_arg0)) shapeCasts_S2x2048x2048_S4096x2048) bitsLt_bf16_f32 := by
  show StableHlo.after hostOps0 (W0 m ρ c) (Proc.devRef .tc main_v1) = _
  after_results
  rfl

theorem W1_v2 (c : Dev nD) : (W1 m ρ c (Proc.devRef .tc main_v2) : FVec Ideal S6144x2048 .bf16)
    = truncf (F := Ideal) (s := S6144x2048) .bf16 (m ((c : Thread nD τ).loc main_arg1)) bitsLt_bf16_f32 := by
  show StableHlo.after hostOps0 (W0 m ρ c) (Proc.devRef .tc main_v2) = _
  after_results

theorem W1_v3 (c : Dev nD) : (W1 m ρ c (Proc.devRef .tc main_v3) : FVec Ideal S1x6144 .f32)
    = shapeCast (s := S6144) S1x6144 (m ((c : Thread nD τ).loc main_arg2)) shapeCasts_S6144_S1x6144 := by
  show StableHlo.after hostOps0 (W0 m ρ c) (Proc.devRef .tc main_v3) = _
  after_results
  rfl

theorem W1_arg3 (c : Dev nD) : W1 m ρ c (Proc.devRef .tc main_arg3) = m ((c : Thread nD τ).loc main_arg3) := by
  show StableHlo.after hostOps0 (W0 m ρ c) (Proc.devRef .tc main_arg3) = _
  after_results

/-! ## After the projection region -/

theorem W2_v4 (c : Dev nD) : unrows (F := Ideal) (W2 m ρ c (Proc.devRef .tc main_v4))
    = qkvOf (m ((c : Thread nD τ).loc main_arg0)) (m ((c : Thread nD τ).loc main_arg1)) (m ((c : Thread nD τ).loc main_arg2)) := by
  have h : W2 m ρ c (Proc.devRef .tc main_v4) = (dat0 (V1 m ρ) c).arrAt 3 cfg0.N := W2_arr m ρ c 3
  rw [Cert.KernelIdeal.ProjValue.arr_proj] at h
  have e1 : V1 m ρ c main_v1 = _ := W1_v1 m ρ c
  have e2 : V1 m ρ c main_v2 = _ := W1_v2 m ρ c
  have e3 : V1 m ρ c main_v3 = _ := W1_v3 m ρ c
  rw [e1, e2, e3] at h
  unfold qkvOf
  rw [h]

theorem W2_arg3 (c : Dev nD) : W2 m ρ c (Proc.devRef .tc main_arg3) = m ((c : Thread nD τ).loc main_arg3) :=
  (W2_of_ne m ρ c main_arg3 (by decide)).trans (W1_arg3 m ρ c)

/-! ## Before the attention region: the shared chain applied to the projection -/

theorem W3_v24 (c : Dev nD) : (W3 m ρ c (Proc.devRef .tc main_v24) : FVec Ideal S32x2048x128 .f32)
    = flat (F := Ideal) (qOf (unrows (W2 m ρ c (Proc.devRef .tc main_v4))) (W2 m ρ c (Proc.devRef .tc main_arg3))) := by
  show StableHlo.after hostOps1 (W2 m ρ c) (Proc.devRef .tc main_v24) = _
  after_results_simp
  rfl

theorem W3_v25 (c : Dev nD) : (W3 m ρ c (Proc.devRef .tc main_v25) : FVec Ideal S32x2048x128 .f32)
    = flat (F := Ideal) (kOf (unrows (W2 m ρ c (Proc.devRef .tc main_v4))) (W2 m ρ c (Proc.devRef .tc main_arg3))) := by
  show StableHlo.after hostOps1 (W2 m ρ c) (Proc.devRef .tc main_v25) = _
  after_results_simp
  rfl

theorem W3_v26 (c : Dev nD) : (W3 m ρ c (Proc.devRef .tc main_v26) : FVec Ideal S32x2048x128 .f32)
    = flat (F := Ideal) (vOf (unrows (W2 m ρ c (Proc.devRef .tc main_v4)))) := by
  show StableHlo.after hostOps1 (W2 m ρ c) (Proc.devRef .tc main_v26) = _
  after_results_simp
  rfl

theorem W3_v22 (c : Dev nD) : (W3 m ρ c (Proc.devRef .tc main_v22) : FVec Ideal S2x16x2048x128 .f32)
    = kOf (F := Ideal) (unrows (W2 m ρ c (Proc.devRef .tc main_v4))) (W2 m ρ c (Proc.devRef .tc main_arg3)) := by
  show StableHlo.after hostOps1 (W2 m ρ c) (Proc.devRef .tc main_v22) = _
  after_results_simp
  rfl

theorem W3_v23 (c : Dev nD) : (W3 m ρ c (Proc.devRef .tc main_v23) : FVec Ideal S2x16x2048x128 .f32)
    = vOf (F := Ideal) (unrows (W2 m ρ c (Proc.devRef .tc main_v4))) := by
  show StableHlo.after hostOps1 (W2 m ρ c) (Proc.devRef .tc main_v23) = _
  after_results_simp
  rfl

/-! ## After the attention region, and the last stretch -/

theorem W4_v27 (c : Dev nD) : (W4 m ρ c (Proc.devRef .tc main_v27) : FVec Ideal S32x2048x128 .f32)
    = Cert.Spec.attn (W3 m ρ c (Proc.devRef .tc main_v24)) (W3 m ρ c (Proc.devRef .tc main_v25)) (W3 m ρ c (Proc.devRef .tc main_v26)) := by
  have h : W4 m ρ c (Proc.devRef .tc main_v27) = (dat1 (V3 m ρ) c).arrAt 3 cfg1.N := W4_arr m ρ c 3
  rw [Cert.KernelIdeal.AttnValue.arr_attn] at h
  exact h

theorem W5_v30 (c : Dev nD) : (W5 m ρ c (Proc.devRef .tc main_v30) : FVec Ideal S4096x2048 .f32) = merge (F := Ideal) (unflat (W4 m ρ c (Proc.devRef .tc main_v27))) := by
  show StableHlo.after hostOps2 (W4 m ρ c) (Proc.devRef .tc main_v30) = _
  after_results
  rfl

theorem W5_v22 (c : Dev nD) : W5 m ρ c (Proc.devRef .tc main_v22) = W3 m ρ c (Proc.devRef .tc main_v22) := by
  refine Eq.trans ?_ (W4_of_ne m ρ c main_v22 (by decide))
  show StableHlo.after hostOps2 (W4 m ρ c) (Proc.devRef .tc main_v22) = _
  after_results

theorem W5_v23 (c : Dev nD) : W5 m ρ c (Proc.devRef .tc main_v23) = W3 m ρ c (Proc.devRef .tc main_v23) := by
  refine Eq.trans ?_ (W4_of_ne m ρ c main_v23 (by decide))
  show StableHlo.after hostOps2 (W4 m ρ c) (Proc.devRef .tc main_v23) = _
  after_results

/-! ## The three results as functions of the arguments -/

theorem out_y (c : Dev nD) : (W5 m ρ c (Proc.devRef .tc main_v30) : FVec Ideal S4096x2048 .f32)
    = yOf (qkvOf (m ((c : Thread nD τ).loc main_arg0)) (m ((c : Thread nD τ).loc main_arg1)) (m ((c : Thread nD τ).loc main_arg2)))
        (m ((c : Thread nD τ).loc main_arg3)) := by
  rw [W5_v30, W4_v27, W3_v24, W3_v25, W3_v26, W2_v4, W2_arg3]
  rfl

theorem out_k (c : Dev nD) : (W5 m ρ c (Proc.devRef .tc main_v22) : FVec Ideal S2x16x2048x128 .f32)
    = kOf (F := Ideal) (qkvOf (m ((c : Thread nD τ).loc main_arg0)) (m ((c : Thread nD τ).loc main_arg1)) (m ((c : Thread nD τ).loc main_arg2)))
        (m ((c : Thread nD τ).loc main_arg3)) := by
  rw [W5_v22, W3_v22, W2_v4, W2_arg3]

theorem out_v (c : Dev nD) : (W5 m ρ c (Proc.devRef .tc main_v23) : FVec Ideal S2x16x2048x128 .f32)
    = vOf (F := Ideal) (qkvOf (m ((c : Thread nD τ).loc main_arg0)) (m ((c : Thread nD τ).loc main_arg1)) (m ((c : Thread nD τ).loc main_arg2))) := by
  rw [W5_v23, W3_v23, W2_v4]

end Cert.KernelIdeal.Fold

end
-- ==== Proof.RefProj.lean ====
/-
  The reference's projection is the kernel's. The reference contracts the last axis of x : [2, 2048, 2048] with the
  last axis of the weight : [6144, 2048] and adds the bias broadcast over batch and position; entry (b, s, f) is
  Σ_e x[b, s, e] · w[f, e] + bias[f]. The kernel's program views x as [4096, 2048] rows (row 2048·b + s), the bias as a
  [1, 6144] row, computes `Spec.proj`, and splits the rows back into (b, s): the same entry.
-/
import proofs.«157867_j15144054686376_1_alg».proof.Proof.Gen.ReferenceIdeal.Read
import proofs.«157867_j15144054686376_1_alg».proof.Proof.Chain
import proofs.«157867_j15144054686376_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal.Read

/-- The [4096, 6144] rows split into (batch, position): entry (b, s, f) of the [2, 2048, 6144] view is entry
    (2048·b + s, f) of the rows. -/
theorem unrows_read {α : Type} (y : (⟨2, ![4096, 6144]⟩ : Shape).Idx → α)
    (h : (⟨2, ![4096, 6144]⟩ : Shape).ShapeCasts ⟨3, ![2, 2048, 6144]⟩) (b : Fin 2) (s : Fin 2048) (f : Fin 6144)
    (R : Fin 4096) (hR : R.val = 2048 * b.val + s.val) :
    shapeCast ⟨3, ![2, 2048, 6144]⟩ y h (ix3 b s f) = y (ix2 R f) :=
  shapeCast_apply y h _ _ (by
    rw [Shape.rowMajor_val_two, Shape.rowMajor_val_three]
    show R.val * 6144 + f.val = (b.val * 2048 + s.val) * 6144 + f.val
    rw [hR]; omega)

/-- The [2, 2048, 2048] array viewed as [4096, 2048] rows: entry (2048·b + s, e) of the rows is entry (b, s, e). -/
theorem rows_read {α : Type} (x : (⟨3, ![2, 2048, 2048]⟩ : Shape).Idx → α)
    (h : (⟨3, ![2, 2048, 2048]⟩ : Shape).ShapeCasts ⟨2, ![4096, 2048]⟩) (b : Fin 2) (s : Fin 2048) (e : Fin 2048)
    (R : Fin 4096) (hR : R.val = 2048 * b.val + s.val) :
    shapeCast ⟨2, ![4096, 2048]⟩ x h (ix2 R e) = x (ix3 b s e) :=
  shapeCast_apply x h _ _ (by
    rw [Shape.rowMajor_val_three, Shape.rowMajor_val_two]
    show (b.val * 2048 + s.val) * 2048 + e.val = R.val * 2048 + e.val
    rw [hR]; omega)

/-- The kernel program's projection of the arguments is the reference's `add (dot_general x w) (broadcast bias)`. -/
theorem ref_qkv (x0 : FVec Ideal Cert.KernelIdeal.S2x2048x2048 .f32) (x1 : FVec Ideal Cert.KernelIdeal.S6144x2048 .f32) (x2 : FVec Ideal Cert.KernelIdeal.S6144 .f32) :
    Cert.KernelIdeal.Chain.qkvOf x0 x1 x2 = val_main_v3 (F := Ideal) x0 x1 x2 := by
  funext i
  rw [val_main_v3_apply, val_main_v0_apply, val_main_v2_apply, val_main_v1_apply, Ideal.addf_def]
  have hb : (i 0).val < 2 := (i 0).isLt
  have hs : (i 1).val < 2048 := (i 1).isLt
  have hf : (i 2).val < 6144 := (i 2).isLt
  -- the coordinates of i, and the row 2048·b + s
  obtain ⟨b, hbv⟩ : ∃ b : Fin 2, b = (⟨(i 0).val, hb⟩ : Fin 2) := ⟨_, rfl⟩
  obtain ⟨s, hsv⟩ : ∃ s : Fin 2048, s = (⟨(i 1).val, hs⟩ : Fin 2048) := ⟨_, rfl⟩
  obtain ⟨f, hfv⟩ : ∃ f : Fin 6144, f = (⟨(i 2).val, hf⟩ : Fin 6144) := ⟨_, rfl⟩
  have hi : i = ix3 b s f := by
    subst hbv hsv hfv
    exact eq_ix3 i
  have hR : 2048 * b.val + s.val < 4096 := by
    have := b.isLt; have := s.isLt; omega
  unfold Cert.KernelIdeal.Chain.qkvOf Cert.KernelIdeal.Chain.unrows
  conv_lhs => rw [hi]
  rw [unrows_read _ _ b s f (⟨2048 * b.val + s.val, hR⟩ : Fin 4096) rfl]
  show (∑ e : Fin 2048,
      (truncf (F := Ideal) .bf16 (shapeCast Cert.KernelIdeal.S4096x2048 x0 Cert.KernelIdeal.Gen.shapeCasts_S2x2048x2048_S4096x2048) Cert.KernelIdeal.Gen.bitsLt_bf16_f32)
          (ix2 (⟨2048 * b.val + s.val, hR⟩ : Fin 4096) e)
        * (truncf (F := Ideal) (s := Cert.KernelIdeal.S6144x2048) .bf16 x1 Cert.KernelIdeal.Gen.bitsLt_bf16_f32) (ix2 f e))
      + (shapeCast (s := Cert.KernelIdeal.S6144) Cert.KernelIdeal.S1x6144 x2 Cert.KernelIdeal.Gen.shapeCasts_S6144_S1x6144) (ix2 (0 : Fin 1) f) = _
  refine congrArg₂ (· + ·) (Finset.sum_congr rfl fun e _ => congrArg₂ (· * ·) ?_ ?_) ?_
  · -- x at row 2048·b + s, column e
    rw [truncf_apply]
    refine (rows_read x0 _ b s e _ rfl).trans (congrArg x0 ?_)
    subst hbv hsv hfv
    funext a
    match a with
    | ⟨0, _⟩ => rfl
    | ⟨1, _⟩ => rfl
    | ⟨2, _⟩ => rfl
  · -- the weight at row f, column e
    rw [truncf_apply]
    refine congrArg x1 ?_
    subst hbv hsv hfv
    funext a
    match a with
    | ⟨0, _⟩ => rfl
    | ⟨1, _⟩ => rfl
  · -- the bias at f
    refine (shapeCast_a_1a_apply x2 _ (0 : Fin 1) f).trans (congrArg x2 ?_)
    subst hbv hsv hfv
    funext a
    match a with
    | ⟨0, _⟩ => rfl

end Cert.Bridge

end
-- ==== Proof.RefAttn.lean ====
/-
  The reference's attention is the kernel's. On [2, 16, 2048, 128] operands q, k, v the reference contracts the lanes
  of q and k batch by batch and head by head, scales, takes the row maximum (a reduce from −∞, then max against −∞),
  subtracts, exponentiates, sums each row (from 0), divides, and contracts the key axis against v: entry (b, h, s, d)
  is Σ_j (exp_j / rowSum) · v[b, h, j, d]. The kernel's program merges (b, h) into one axis of 32 (head 16·b + h),
  computes `Spec.attn`, and splits the axis again: the same entry.
-/
import proofs.«157867_j15144054686376_1_alg».proof.Proof.Gen.ReferenceIdeal.Read
import proofs.«157867_j15144054686376_1_alg».proof.Proof.Chain
import proofs.«157867_j15144054686376_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal.Read

/-- The merged array read at head 16·b + h is the operand at (b, h). -/
theorem flat_apply (y : FVec Ideal Cert.KernelIdeal.S2x16x2048x128 .f32) (b : Fin 2) (h : Fin 16) (s : Fin 2048) (d : Fin 128)
    (hH : 16 * b.val + h.val < 32) :
    Cert.KernelIdeal.Chain.flat (F := Ideal) y (ix3 (⟨16 * b.val + h.val, hH⟩ : Fin 32) s d) = y (ix4 b h s d) := by
  unfold Cert.KernelIdeal.Chain.flat
  exact shapeCast_apply y _ _ _ (by
    rewrite [Shape.rowMajor_val_four, Shape.rowMajor_val_three]
    show ((b.val * 16 + h.val) * 2048 + s.val) * 128 + d.val = ((16 * b.val + h.val) * 2048 + s.val) * 128 + d.val
    omega)

/-- The split array read at (b, h) is the operand at head 16·b + h. -/
theorem unflat_apply (y : FVec Ideal Cert.KernelIdeal.S32x2048x128 .f32) (b : Fin 2) (h : Fin 16) (s : Fin 2048) (d : Fin 128)
    (hH : 16 * b.val + h.val < 32) :
    Cert.KernelIdeal.Chain.unflat (F := Ideal) y (ix4 b h s d) = y (ix3 (⟨16 * b.val + h.val, hH⟩ : Fin 32) s d) := by
  unfold Cert.KernelIdeal.Chain.unflat
  exact shapeCast_apply y _ _ _ (by
    rewrite [Shape.rowMajor_val_four, Shape.rowMajor_val_three]
    show ((16 * b.val + h.val) * 2048 + s.val) * 128 + d.val = ((b.val * 16 + h.val) * 2048 + s.val) * 128 + d.val
    omega)

open scoped BigOperators

section Reference

variable (x0 : FVec Ideal Cert.KernelIdeal.S2x2048x2048 .f32) (x1 : FVec Ideal Cert.KernelIdeal.S6144x2048 .f32)
  (x2 : FVec Ideal Cert.KernelIdeal.S6144 .f32) (x3 : FVec Ideal Cert.KernelIdeal.S2048x64 .f32)

/-- The reference's scaled score at (b, h, s, j): the lanes of q at row s against k at row j, times the scale constant. -/
theorem ref_score (b : Fin 2) (h : Fin 16) (s j : Fin 2048) :
    val_main_v24 (F := Ideal) x0 x1 x2 x3 (ix4 b h s j)
      = (∑ dd : Fin 128, val_main_v19 (F := Ideal) x0 x1 x2 x3 (ix4 b h s dd) * val_main_v20 (F := Ideal) x0 x1 x2 x3 (ix4 b h j dd))
          * Cert.Spec.scaleC := by
  rw [val_main_v24_apply, val_main_v23_apply, val_main_cst_apply, val_main_v22_apply]
  have el : ∀ dd : Fin 128, lidx_main_v22 (ix4 b h s j) dd = ix4 b h s dd := fun dd => funext fun a => by
    match a with | ⟨0, _⟩ => rfl | ⟨1, _⟩ => rfl | ⟨2, _⟩ => rfl | ⟨3, _⟩ => rfl
  have er : ∀ dd : Fin 128, ridx_main_v22 (ix4 b h s j) dd = ix4 b h j dd := fun dd => funext fun a => by
    match a with | ⟨0, _⟩ => rfl | ⟨1, _⟩ => rfl | ⟨2, _⟩ => rfl | ⟨3, _⟩ => rfl
  simp only [el, er]
  rfl

/-- The reference's row maximum at (b, h, s): the fold of max from −∞ over the row's scores, then max against −∞. -/
theorem ref_rowMax (b : Fin 2) (h : Fin 16) (s : Fin 2048) :
    val_main_v27 (F := Ideal) x0 x1 x2 x3 (ix3 b h s)
      = max Cert.Spec.negInf ((Finset.univ : Finset (Fin 2048)).fold max Cert.Spec.negInf
          (fun j => val_main_v24 (F := Ideal) x0 x1 x2 x3 (ix4 b h s j))) := by
  rw [val_main_v27_apply, val_main_v26_apply, val_main_cst_1_apply]
  unfold val_main_v25
  rw [Host.reduce_eq_fold_single (a := 3) FloatOps.maximumf _ _ Cert.ReferenceIdeal.Gen.reducesTo_S2x16x2048x2048_S2x16x2048_d3 (by decide)
    Cert.ReferenceIdeal.Gen.h_S_ (ix3 b h s)]
  refine congrArg (max Cert.Spec.negInf) ?_
  refine Finset.fold_congr fun j _ => ?_
  refine congrArg (val_main_v24 (F := Ideal) x0 x1 x2 x3) (funext fun a => Fin.ext ?_)
  match a with | ⟨0, _⟩ => rfl | ⟨1, _⟩ => rfl | ⟨2, _⟩ => rfl | ⟨3, _⟩ => rfl

/-- The reference's exponential at (b, h, s, j): exp of the score minus its row's maximum. -/
theorem ref_expo (b : Fin 2) (h : Fin 16) (s j : Fin 2048) :
    val_main_v31 (F := Ideal) x0 x1 x2 x3 (ix4 b h s j)
      = Ideal.exp (val_main_v24 (F := Ideal) x0 x1 x2 x3 (ix4 b h s j) - val_main_v27 (F := Ideal) x0 x1 x2 x3 (ix3 b h s)) := by
  rw [val_main_v31_apply, val_main_v30_apply, val_main_v29_apply, val_main_v28_apply]
  have e : idx_main_v28 (idx_main_v29 (ix4 b h s j)) = ix3 b h s := funext fun a => by
    match a with | ⟨0, _⟩ => rfl | ⟨1, _⟩ => rfl | ⟨2, _⟩ => rfl
  rw [e]
  rfl

/-- The reference's row sum, broadcast back along the row: the sum of the row's exponentials. -/
theorem ref_rowSum (b : Fin 2) (h : Fin 16) (s j : Fin 2048) :
    val_main_v34 (F := Ideal) x0 x1 x2 x3 (ix4 b h s j)
      = ∑ j' : Fin 2048, val_main_v31 (F := Ideal) x0 x1 x2 x3 (ix4 b h s j') := by
  rw [val_main_v34_apply, val_main_v33_apply, val_main_v32_apply, val_main_cst_2_apply, Ideal.ofBits_def, Ideal.ofBits_zero_f32, zero_add]
  refine Finset.sum_congr rfl fun j' _ => ?_
  refine congrArg (val_main_v31 (F := Ideal) x0 x1 x2 x3) (funext fun a => ?_)
  match a with | ⟨0, _⟩ => rfl | ⟨1, _⟩ => rfl | ⟨2, _⟩ => rfl | ⟨3, _⟩ => rfl

/-- The reference's result at (b, h, s, d): the normalized exponentials against the values' column d. -/
theorem ref_out (b : Fin 2) (h : Fin 16) (s : Fin 2048) (d : Fin 128) :
    val_main_v36 (F := Ideal) x0 x1 x2 x3 (ix4 b h s d)
      = ∑ j : Fin 2048, Ideal.div (val_main_v31 (F := Ideal) x0 x1 x2 x3 (ix4 b h s j)) (val_main_v34 (F := Ideal) x0 x1 x2 x3 (ix4 b h s j))
          * val_main_v21 (F := Ideal) x0 x1 x2 (ix4 b h j d) := by
  rw [val_main_v36_apply]
  refine Finset.sum_congr rfl fun j _ => ?_
  rw [val_main_v35_apply]
  have el : lidx_main_v36 (ix4 b h s d) j = ix4 b h s j := funext fun a => by
    match a with | ⟨0, _⟩ => rfl | ⟨1, _⟩ => rfl | ⟨2, _⟩ => rfl | ⟨3, _⟩ => rfl
  have er : ridx_main_v36 (ix4 b h s d) j = ix4 b h j d := funext fun a => by
    match a with | ⟨0, _⟩ => rfl | ⟨1, _⟩ => rfl | ⟨2, _⟩ => rfl | ⟨3, _⟩ => rfl
  rw [el, er]
  rfl

end Reference

/-- `Spec.attn` of the flattened operands, unflattened, is the reference's
    `dot_general (softmax (scale · dot_general q k)) v` on the operands the reference's own chain produces. -/
theorem ref_attn (x0 : FVec Ideal Cert.KernelIdeal.S2x2048x2048 .f32) (x1 : FVec Ideal Cert.KernelIdeal.S6144x2048 .f32) (x2 : FVec Ideal Cert.KernelIdeal.S6144 .f32) (x3 : FVec Ideal Cert.KernelIdeal.S2048x64 .f32) :
    Cert.KernelIdeal.Chain.unflat (F := Ideal)
        (Cert.Spec.attn (Cert.KernelIdeal.Chain.flat (F := Ideal) (val_main_v19 (F := Ideal) x0 x1 x2 x3))
          (Cert.KernelIdeal.Chain.flat (F := Ideal) (val_main_v20 (F := Ideal) x0 x1 x2 x3))
          (Cert.KernelIdeal.Chain.flat (F := Ideal) (val_main_v21 (F := Ideal) x0 x1 x2)))
      = val_main_v36 (F := Ideal) x0 x1 x2 x3 := by
  funext i
  obtain ⟨b, h, s, d, rfl⟩ : ∃ b h s d, i = ix4 b h s d := ⟨i 0, i 1, i 2, i 3, eq_ix4 i⟩
  have hH : 16 * b.val + h.val < 32 := by have := b.isLt; have := h.isLt; omega
  rw [unflat_apply _ b h s d hH, ref_out]
  simp only [ref_rowSum, ref_expo, ref_rowMax, ref_score]
  generalize val_main_v19 (F := Ideal) x0 x1 x2 x3 = q
  generalize val_main_v20 (F := Ideal) x0 x1 x2 x3 = k
  generalize val_main_v21 (F := Ideal) x0 x1 x2 = v
  show Cert.Spec.attnAt _ _ _ (⟨16 * b.val + h.val, hH⟩ : Fin 32) s d = _
  simp only [Cert.Spec.attnAt, Cert.Spec.rowSum, Cert.Spec.expo, Cert.Spec.rowMax, Cert.Spec.score, flat_apply]

end Cert.Bridge

end
-- ==== Proof.RefChain.lean ====
/-
  The host operations between the projection and the attention are the same in both programs, so on the same
  projection they give the same query, key and value operands; with the two index-level facts (the projections agree,
  the attentions agree) the kernel program's three results are the reference's three stages.
-/
import proofs.«157867_j15144054686376_1_alg».proof.Proof.Gen.ReferenceIdeal.Read
import proofs.«157867_j15144054686376_1_alg».proof.Proof.Chain
import proofs.«157867_j15144054686376_1_alg».proof.Proof.Spec
import proofs.«157867_j15144054686376_1_alg».proof.Proof.RefProj
import proofs.«157867_j15144054686376_1_alg».proof.Proof.RefAttn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal.Read

open Cert.KernelIdeal.Chain

/-- The shared chain on the reference's projection gives the reference's query operand, -/
theorem ref_q (x0 : FVec Ideal Cert.KernelIdeal.S2x2048x2048 .f32) (x1 : FVec Ideal Cert.KernelIdeal.S6144x2048 .f32) (x2 : FVec Ideal Cert.KernelIdeal.S6144 .f32) (x3 : FVec Ideal Cert.KernelIdeal.S2048x64 .f32) :
    qOf (F := Ideal) (val_main_v3 (F := Ideal) x0 x1 x2) x3 = val_main_v19 (F := Ideal) x0 x1 x2 x3 := by
  unfold qOf toHeads rot half qPart freqB val_main_v19 val_main_v17 val_main_v13 val_main_v11 val_main_v12 val_main_v10 val_main_v7 val_main_v4
  rfl

/-- its key operand (the second result), -/
theorem ref_k (x0 : FVec Ideal Cert.KernelIdeal.S2x2048x2048 .f32) (x1 : FVec Ideal Cert.KernelIdeal.S6144x2048 .f32) (x2 : FVec Ideal Cert.KernelIdeal.S6144 .f32) (x3 : FVec Ideal Cert.KernelIdeal.S2048x64 .f32) :
    kOf (F := Ideal) (val_main_v3 (F := Ideal) x0 x1 x2) x3 = val_main_v20 (F := Ideal) x0 x1 x2 x3 := by
  unfold kOf toHeads rot half kPart freqB val_main_v20 val_main_v18 val_main_v16 val_main_v14 val_main_v15 val_main_v10 val_main_v8 val_main_v5
  rfl

/-- and its value operand (the third result). -/
theorem ref_v (x0 : FVec Ideal Cert.KernelIdeal.S2x2048x2048 .f32) (x1 : FVec Ideal Cert.KernelIdeal.S6144x2048 .f32) (x2 : FVec Ideal Cert.KernelIdeal.S6144 .f32) :
    vOf (F := Ideal) (val_main_v3 (F := Ideal) x0 x1 x2) = val_main_v21 (F := Ideal) x0 x1 x2 := by
  unfold vOf toHeads vPart val_main_v21 val_main_v9 val_main_v6
  rfl

/-- The kernel program's second result is the reference's, -/
theorem ref_k' (x0 : FVec Ideal Cert.KernelIdeal.S2x2048x2048 .f32) (x1 : FVec Ideal Cert.KernelIdeal.S6144x2048 .f32) (x2 : FVec Ideal Cert.KernelIdeal.S6144 .f32) (x3 : FVec Ideal Cert.KernelIdeal.S2048x64 .f32) :
    kOf (F := Ideal) (qkvOf x0 x1 x2) x3 = val_main_v20 (F := Ideal) x0 x1 x2 x3 := by
  rw [ref_qkv]; exact ref_k x0 x1 x2 x3

/-- and so is its third. -/
theorem ref_v' (x0 : FVec Ideal Cert.KernelIdeal.S2x2048x2048 .f32) (x1 : FVec Ideal Cert.KernelIdeal.S6144x2048 .f32) (x2 : FVec Ideal Cert.KernelIdeal.S6144 .f32) :
    vOf (F := Ideal) (qkvOf x0 x1 x2) = val_main_v21 (F := Ideal) x0 x1 x2 := by
  rw [ref_qkv]; exact ref_v x0 x1 x2

/-- The kernel program's first result is the reference's. -/
theorem ref_y (x0 : FVec Ideal Cert.KernelIdeal.S2x2048x2048 .f32) (x1 : FVec Ideal Cert.KernelIdeal.S6144x2048 .f32) (x2 : FVec Ideal Cert.KernelIdeal.S6144 .f32) (x3 : FVec Ideal Cert.KernelIdeal.S2048x64 .f32) :
    yOf (qkvOf x0 x1 x2) x3 = val_main_v38 (F := Ideal) x0 x1 x2 x3 := by
  unfold yOf
  rw [ref_qkv, ref_q, ref_k, ref_v, ref_attn]
  unfold merge val_main_v38 val_main_v37
  rfl

end Cert.Bridge

end
-- ==== Proof.lean ====
/-
  The certificate of the fused projection + attention kernel against its jnp reference, over the extended reals.

  The kernel's program is two Pallas regions among host operations: a QKV projection `x · Wcᵀ + bc` on a 4 × 6 grid of
  [1024, 1024] result blocks, and softmax attention per (batch · head, query tile) on a 32 × 2 grid, each tile seeing all
  2048 keys and values of its head. Between them the host splits the projection into queries, keys and values by heads,
  scales the first 64 lanes of each query and key head by the position table and duplicates them, and moves heads in
  front of positions; after them it moves the attention result back to [4096, 2048]. The reference does the same with
  one batched einsum per matrix product.

  At the extended reals a change of float format is the identity and a matrix product is a plain finite sum, so:
  * each region's result array is one function of its operand arrays (`Spec.proj`, `Spec.attn`): a block's entry is
    that function's entry because each block contracts a WHOLE axis (no sum is regrouped), and the blocks tile the array;
  * the host operations between and after the regions are literally the reference's, so on equal projections they give
    equal operands and results;
  * the reference's projection and attention, read at an index, are the same sums, maxima, exponentials and quotients.
  No law of arithmetic beyond reading both sides at an index is used; in particular nothing needs the inputs finite.
  The frames are the generated ones (the reference's is its generated run with the results dropped); the idealized
  kernel is the kernel's own text read at the extended reals, so `preserves` has nothing to state.
-/
import proofs.«157867_j15144054686376_1_alg».proof.Defs
import proofs.«157867_j15144054686376_1_alg».proof.Proof.Gen.Kernel
import proofs.«157867_j15144054686376_1_alg».proof.Proof.Gen.Kernel.Skeleton
import proofs.«157867_j15144054686376_1_alg».proof.Proof.Gen.Kernel.Launch
import proofs.«157867_j15144054686376_1_alg».proof.Proof.Gen.Kernel.Points
import proofs.«157867_j15144054686376_1_alg».proof.Proof.Gen.Kernel.Frame
import proofs.«157867_j15144054686376_1_alg».proof.Proof.Gen.KernelIdeal
import proofs.«157867_j15144054686376_1_alg».proof.Proof.Gen.KernelIdeal.Skeleton
import proofs.«157867_j15144054686376_1_alg».proof.Proof.Gen.KernelIdeal.Launch
import proofs.«157867_j15144054686376_1_alg».proof.Proof.Gen.KernelIdeal.Points
import proofs.«157867_j15144054686376_1_alg».proof.Proof.Gen.KernelIdeal.Frame
import proofs.«157867_j15144054686376_1_alg».proof.Proof.Gen.ReferenceIdeal
import proofs.«157867_j15144054686376_1_alg».proof.Proof.Gen.Pre_finite_inputs
import proofs.«157867_j15144054686376_1_alg».proof.Proof.Gen.ReferenceIdeal.Run
import proofs.«157867_j15144054686376_1_alg».proof.Proof.Gen.ReferenceIdeal.Read
import proofs.«157867_j15144054686376_1_alg».proof.Proof.KernelRun
import proofs.«157867_j15144054686376_1_alg».proof.Proof.KernelFold
import proofs.«157867_j15144054686376_1_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference has no kernel: its frame is its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation: nothing to state. -/
theorem preserves : Cert.preserves_Kernel_KernelIdeal := trivial

/-- Both programs end with the same three results: the kernel's program at `yOf`, `kOf`, `vOf` of the projection of
    the arguments (its run read through its segments), the reference at its three stages (its generated run), which
    are those functions of the same arguments. -/
theorem algebraic : Cert.algebraic_KernelIdeal_ReferenceIdeal := by
  intro m ρ m' ρ' _ hagree
  refine ⟨fun c => Cert.KernelIdeal.Chain.yOf (Cert.KernelIdeal.Chain.qkvOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)),
    fun c => Cert.KernelIdeal.Chain.kOf (F := Ideal) (Cert.KernelIdeal.Chain.qkvOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)),
    fun c => Cert.KernelIdeal.Chain.vOf (F := Ideal) (Cert.KernelIdeal.Chain.qkvOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))), ?_, ?_⟩
  · refine (θ_run Cert.KernelIdeal.defs _ _).mono (fun r h c => ?_) (Cert.KernelIdeal.Run.run_at (F := Ideal) m ρ)
    exact ⟨(h c Cert.KernelIdeal.main_v30 (by decide)).trans (Cert.KernelIdeal.Fold.out_y m ρ c),
      (h c Cert.KernelIdeal.main_v22 (by decide)).trans (Cert.KernelIdeal.Fold.out_k m ρ c),
      (h c Cert.KernelIdeal.main_v23 (by decide)).trans (Cert.KernelIdeal.Fold.out_v m ρ c),
      (h c Cert.KernelIdeal.main_arg0 (by decide)).trans (Cert.KernelIdeal.Gen.W5_main_arg0 m ρ c),
      (h c Cert.KernelIdeal.main_arg1 (by decide)).trans (Cert.KernelIdeal.Gen.W5_main_arg1 m ρ c),
      (h c Cert.KernelIdeal.main_arg2 (by decide)).trans (Cert.KernelIdeal.Gen.W5_main_arg2 m ρ c),
      (h c Cert.KernelIdeal.main_arg3 (by decide)).trans (Cert.KernelIdeal.Gen.W5_main_arg3 m ρ c)⟩
  · refine (θ_run Cert.ReferenceIdeal.defs _ _).mono (fun r h c => ?_) (Cert.ReferenceIdeal.Value.run (F := Ideal) m' ρ')
    obtain ⟨h38, h20, h21, a0, a1, a2, a3⟩ := h c
    obtain ⟨e0, e1, e2, e3⟩ := hagree c
    refine ⟨h38.trans ?_, h20.trans ?_, h21.trans ?_, a0, a1, a2, a3⟩
    · rw [Cert.ReferenceIdeal.Read.val_main_v38_eq, e0, e1, e2, e3]
      exact (Cert.Bridge.ref_y _ _ _ _).symm
    · rw [e0, e1, e2, e3]
      exact (Cert.ReferenceIdeal.Read.val_main_v20_eq _ _ _ _).trans (Cert.Bridge.ref_k' _ _ _ _).symm
    · rw [e0, e1, e2]
      exact (Cert.ReferenceIdeal.Read.val_main_v21_eq _ _ _).trans (Cert.Bridge.ref_v' _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
